-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4680 : Shape := ⟨2, ![16384, 4680]⟩
abbrev S_ : Shape := ⟨0, ![]⟩

class Facts : Prop where
  bcast_S_S16384x4680 : S_.BroadcastsInDim S16384x4680 (![] : Fin 0 → Fin S16384x4680.rank)
  reducesTo_S16384x4680_S_d0_1 : S16384x4680.ReducesTo [0, 1] S_
  h_S_ : 0 < S_.numel

variable [Facts]

def fn {F : FTy → Type} [FloatOps F] (main_arg0 : FVec F S16384x4680 .f32) (main_arg1 : FVec F S16384x4680 .f32) : IVec S_ 1 :=
  let main_v0 : FVec F S16384x4680 .f32 := Host.absf main_arg0
  let main_cst : FVec F S_ .f32 := constant S_ .f32 0x7F800000#32
  let main_v1 : FVec F S16384x4680 .f32 := broadcastInDim S16384x4680 ![] bcast_S_S16384x4680 main_cst
  let main_v2 : IVec S16384x4680 1 := cmpf .olt main_v0 main_v1
  let main_c : IVec S_ 1 := constantI S_ 1 1#1
  let main_v3 : IVec S_ 1 := (fun x v => Host.reduce IntOp.andi x v reducesTo_S16384x4680_S_d0_1 h_S_) main_v2 main_c
  let main_v4 : FVec F S16384x4680 .f32 := Host.absf main_arg1
  let main_cst_0 : FVec F S_ .f32 := constant S_ .f32 0x7F800000#32
  let main_v5 : FVec F S16384x4680 .f32 := broadcastInDim S16384x4680 ![] bcast_S_S16384x4680 main_cst_0
  let main_v6 : IVec S16384x4680 1 := cmpf .olt main_v4 main_v5
  let main_c_1 : IVec S_ 1 := constantI S_ 1 1#1
  let main_v7 : IVec S_ 1 := (fun x v => Host.reduce IntOp.andi x v reducesTo_S16384x4680_S_d0_1 h_S_) main_v6 main_c_1
  let main_v8 : IVec S_ 1 := andi main_v3 main_v7
  main_v8
-- ==== Kernel.lean ====
abbrev S16384x4680 : Shape := ⟨2, ![16384, 4680]⟩
abbrev S256x4680 : Shape := ⟨2, ![256, 4680]⟩
abbrev S256x8 : Shape := ⟨2, ![256, 8]⟩
abbrev S256x64 : Shape := ⟨2, ![256, 64]⟩
abbrev S256x512 : Shape := ⟨2, ![256, 512]⟩
abbrev S256x4096 : Shape := ⟨2, ![256, 4096]⟩
abbrev S256x8x1 : Shape := ⟨3, ![256, 8, 1]⟩
abbrev S256x1x8 : Shape := ⟨3, ![256, 1, 8]⟩
abbrev S256x8x8 : Shape := ⟨3, ![256, 8, 8]⟩
abbrev S256x1x64 : Shape := ⟨3, ![256, 1, 64]⟩
abbrev S256x8x64 : Shape := ⟨3, ![256, 8, 64]⟩
abbrev S256x64x1 : Shape := ⟨3, ![256, 64, 1]⟩
abbrev S256x64x8 : Shape := ⟨3, ![256, 64, 8]⟩
abbrev S256x1x512 : Shape := ⟨3, ![256, 1, 512]⟩
abbrev S256x8x512 : Shape := ⟨3, ![256, 8, 512]⟩
abbrev S256x64x64 : Shape := ⟨3, ![256, 64, 64]⟩
abbrev S256x512x1 : Shape := ⟨3, ![256, 512, 1]⟩
abbrev S256x512x8 : Shape := ⟨3, ![256, 512, 8]⟩

abbrev nBuf : Space → Nat
  | .hbm => 3
  | .vmem => 6
  | .smem => 0
  | _ => 0

abbrev bufTy : (tb : Table) → Fin (tcTables nBuf tb) → BufTy
  | .hbm, ⟨0, _⟩ => ⟨S16384x4680, .f32⟩
  | .hbm, ⟨1, _⟩ => ⟨S16384x4680, .f32⟩
  | .hbm, ⟨2, _⟩ => ⟨S16384x4680, .f32⟩
  | .local _ .vmem, ⟨0, _⟩ => ⟨S256x4680, .f32⟩
  | .local _ .vmem, ⟨1, _⟩ => ⟨S256x4680, .f32⟩
  | .local _ .vmem, ⟨2, _⟩ => ⟨S256x4680, .f32⟩
  | .local _ .vmem, ⟨3, _⟩ => ⟨S256x4680, .f32⟩
  | .local _ .vmem, ⟨4, _⟩ => ⟨S256x4680, .f32⟩
  | .local _ .vmem, ⟨5, _⟩ => ⟨S256x4680, .f32⟩
  | _, _ => ⟨S16384x4680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4680 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4680 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x4680_S256x4680_0_0 : ∀ a, (![0, 0] : Fin 2 → Nat) a + S256x4680.size a ≤ S256x4680.size a
  h_S256x4680 : 0 < S256x4680.numel
  slices_S256x4680_o0_0_S256x8 : S256x4680.Slices ![0, 0] S256x8
  slices_S256x4680_o0_8_S256x64 : S256x4680.Slices ![0, 8] S256x64
  slices_S256x4680_o0_72_S256x512 : S256x4680.Slices ![0, 72] S256x512
  slices_S256x4680_o0_584_S256x4096 : S256x4680.Slices ![0, 584] S256x4096
  shapeCasts_S256x8_S256x8x1 : S256x8.ShapeCasts S256x8x1
  shapeCasts_S256x8_S256x1x8 : S256x8.ShapeCasts S256x1x8
  broadcasts_S256x8x1_S256x8x8 : S256x8x1.Broadcasts S256x8x8
  broadcasts_S256x1x8_S256x8x8 : S256x1x8.Broadcasts S256x8x8
  shapeCasts_S256x8x8_S256x64 : S256x8x8.ShapeCasts S256x64
  shapeCasts_S256x64_S256x1x64 : S256x64.ShapeCasts S256x1x64
  broadcasts_S256x8x1_S256x8x64 : S256x8x1.Broadcasts S256x8x64
  broadcasts_S256x1x64_S256x8x64 : S256x1x64.Broadcasts S256x8x64
  shapeCasts_S256x8x64_S256x512 : S256x8x64.ShapeCasts S256x512
  shapeCasts_S256x64_S256x64x1 : S256x64.ShapeCasts S256x64x1
  broadcasts_S256x64x1_S256x64x8 : S256x64x1.Broadcasts S256x64x8
  broadcasts_S256x1x8_S256x64x8 : S256x1x8.Broadcasts S256x64x8
  shapeCasts_S256x64x8_S256x512 : S256x64x8.ShapeCasts S256x512
  shapeCasts_S256x512_S256x1x512 : S256x512.ShapeCasts S256x1x512
  broadcasts_S256x8x1_S256x8x512 : S256x8x1.Broadcasts S256x8x512
  broadcasts_S256x1x512_S256x8x512 : S256x1x512.Broadcasts S256x8x512
  shapeCasts_S256x8x512_S256x4096 : S256x8x512.ShapeCasts S256x4096
  broadcasts_S256x64x1_S256x64x64 : S256x64x1.Broadcasts S256x64x64
  broadcasts_S256x1x64_S256x64x64 : S256x1x64.Broadcasts S256x64x64
  shapeCasts_S256x64x64_S256x4096 : S256x64x64.ShapeCasts S256x4096
  shapeCasts_S256x512_S256x512x1 : S256x512.ShapeCasts S256x512x1
  broadcasts_S256x512x1_S256x512x8 : S256x512x1.Broadcasts S256x512x8
  broadcasts_S256x1x8_S256x512x8 : S256x1x8.Broadcasts S256x512x8
  shapeCasts_S256x512x8_S256x4096 : S256x512x8.ShapeCasts S256x4096
  concatenates_S256x8_S256x64_S256x512_S256x4096_S256x4680_d1 : Shape.Concatenates [S256x8, S256x64, S256x512, S256x4096] S256x4680 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4680.size a ≤ S16384x4680.size a
  hwx0_0 : ∀ i : grid0.Coords, EltTy.bits .f32 = 32 ∨ (Rect.block (s := S16384x4680) S256x4680.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4680.size a ≤ S16384x4680.size a
  hwx0_1 : ∀ i : grid0.Coords, EltTy.bits .f32 = 32 ∨ (Rect.block (s := S16384x4680) S256x4680.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4680.size a ≤ S16384x4680.size a
  hwx0_2 : ∀ i : grid0.Coords, EltTy.bits .f32 = 32 ∨ (Rect.block (s := S16384x4680) S256x4680.size (cc0_transform_2 i) (hinb0_2 i)).WholeWords (EltTy.packing .f32)

variable [Facts₀]

abbrev win0_0 : Pipeline.Window sig grid0 :=
  Pipeline.Window.ofSpec (Memref.whole main_arg0) S256x4680.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4680.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4680.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4680 : Shape := ⟨2, ![16384, 4680]⟩
abbrev S16384x8 : Shape := ⟨2, ![16384, 8]⟩
abbrev S16384x64 : Shape := ⟨2, ![16384, 64]⟩
abbrev S16384x512 : Shape := ⟨2, ![16384, 512]⟩
abbrev S16384x4096 : Shape := ⟨2, ![16384, 4096]⟩
abbrev S16384x8x1 : Shape := ⟨3, ![16384, 8, 1]⟩
abbrev S16384x1x8 : Shape := ⟨3, ![16384, 1, 8]⟩
abbrev S16384x8x8 : Shape := ⟨3, ![16384, 8, 8]⟩
abbrev S16384x1x64 : Shape := ⟨3, ![16384, 1, 64]⟩
abbrev S16384x8x64 : Shape := ⟨3, ![16384, 8, 64]⟩
abbrev S16384x64x1 : Shape := ⟨3, ![16384, 64, 1]⟩
abbrev S16384x64x8 : Shape := ⟨3, ![16384, 64, 8]⟩
abbrev S16384x1x512 : Shape := ⟨3, ![16384, 1, 512]⟩
abbrev S16384x8x512 : Shape := ⟨3, ![16384, 8, 512]⟩
abbrev S16384x64x64 : Shape := ⟨3, ![16384, 64, 64]⟩
abbrev S16384x512x1 : Shape := ⟨3, ![16384, 512, 1]⟩
abbrev S16384x512x8 : Shape := ⟨3, ![16384, 512, 8]⟩

abbrev nBuf : Space → Nat
  | .hbm => 57
  | .vmem => 0
  | .smem => 0
  | _ => 0

abbrev bufTy : (tb : Table) → Fin (tcTables nBuf tb) → BufTy
  | .hbm, ⟨0, _⟩ => ⟨S16384x4680, .f32⟩
  | .hbm, ⟨1, _⟩ => ⟨S16384x4680, .f32⟩
  | .hbm, ⟨2, _⟩ => ⟨S16384x8, .f32⟩
  | .hbm, ⟨3, _⟩ => ⟨S16384x64, .f32⟩
  | .hbm, ⟨4, _⟩ => ⟨S16384x512, .f32⟩
  | .hbm, ⟨5, _⟩ => ⟨S16384x4096, .f32⟩
  | .hbm, ⟨6, _⟩ => ⟨S16384x8, .f32⟩
  | .hbm, ⟨7, _⟩ => ⟨S16384x64, .f32⟩
  | .hbm, ⟨8, _⟩ => ⟨S16384x512, .f32⟩
  | .hbm, ⟨9, _⟩ => ⟨S16384x4096, .f32⟩
  | .hbm, ⟨10, _⟩ => ⟨S16384x8, .f32⟩
  | .hbm, ⟨11, _⟩ => ⟨S16384x64, .f32⟩
  | .hbm, ⟨12, _⟩ => ⟨S16384x8x1, .f32⟩
  | .hbm, ⟨13, _⟩ => ⟨S16384x1x8, .f32⟩
  | .hbm, ⟨14, _⟩ => ⟨S16384x8x8, .f32⟩
  | .hbm, ⟨15, _⟩ => ⟨S16384x8x8, .f32⟩
  | .hbm, ⟨16, _⟩ => ⟨S16384x8x8, .f32⟩
  | .hbm, ⟨17, _⟩ => ⟨S16384x64, .f32⟩
  | .hbm, ⟨18, _⟩ => ⟨S16384x64, .f32⟩
  | .hbm, ⟨19, _⟩ => ⟨S16384x512, .f32⟩
  | .hbm, ⟨20, _⟩ => ⟨S16384x8x1, .f32⟩
  | .hbm, ⟨21, _⟩ => ⟨S16384x1x64, .f32⟩
  | .hbm, ⟨22, _⟩ => ⟨S16384x8x64, .f32⟩
  | .hbm, ⟨23, _⟩ => ⟨S16384x8x64, .f32⟩
  | .hbm, ⟨24, _⟩ => ⟨S16384x8x64, .f32⟩
  | .hbm, ⟨25, _⟩ => ⟨S16384x512, .f32⟩
  | .hbm, ⟨26, _⟩ => ⟨S16384x512, .f32⟩
  | .hbm, ⟨27, _⟩ => ⟨S16384x64x1, .f32⟩
  | .hbm, ⟨28, _⟩ => ⟨S16384x1x8, .f32⟩
  | .hbm, ⟨29, _⟩ => ⟨S16384x64x8, .f32⟩
  | .hbm, ⟨30, _⟩ => ⟨S16384x64x8, .f32⟩
  | .hbm, ⟨31, _⟩ => ⟨S16384x64x8, .f32⟩
  | .hbm, ⟨32, _⟩ => ⟨S16384x512, .f32⟩
  | .hbm, ⟨33, _⟩ => ⟨S16384x512, .f32⟩
  | .hbm, ⟨34, _⟩ => ⟨S16384x4096, .f32⟩
  | .hbm, ⟨35, _⟩ => ⟨S16384x8x1, .f32⟩
  | .hbm, ⟨36, _⟩ => ⟨S16384x1x512, .f32⟩
  | .hbm, ⟨37, _⟩ => ⟨S16384x8x512, .f32⟩
  | .hbm, ⟨38, _⟩ => ⟨S16384x8x512, .f32⟩
  | .hbm, ⟨39, _⟩ => ⟨S16384x8x512, .f32⟩
  | .hbm, ⟨40, _⟩ => ⟨S16384x4096, .f32⟩
  | .hbm, ⟨41, _⟩ => ⟨S16384x4096, .f32⟩
  | .hbm, ⟨42, _⟩ => ⟨S16384x64x1, .f32⟩
  | .hbm, ⟨43, _⟩ => ⟨S16384x1x64, .f32⟩
  | .hbm, ⟨44, _⟩ => ⟨S16384x64x64, .f32⟩
  | .hbm, ⟨45, _⟩ => ⟨S16384x64x64, .f32⟩
  | .hbm, ⟨46, _⟩ => ⟨S16384x64x64, .f32⟩
  | .hbm, ⟨47, _⟩ => ⟨S16384x4096, .f32⟩
  | .hbm, ⟨48, _⟩ => ⟨S16384x4096, .f32⟩
  | .hbm, ⟨49, _⟩ => ⟨S16384x512x1, .f32⟩
  | .hbm, ⟨50, _⟩ => ⟨S16384x1x8, .f32⟩
  | .hbm, ⟨51, _⟩ => ⟨S16384x512x8, .f32⟩
  | .hbm, ⟨52, _⟩ => ⟨S16384x512x8, .f32⟩
  | .hbm, ⟨53, _⟩ => ⟨S16384x512x8, .f32⟩
  | .hbm, ⟨54, _⟩ => ⟨S16384x4096, .f32⟩
  | .hbm, ⟨55, _⟩ => ⟨S16384x4096, .f32⟩
  | .hbm, ⟨56, _⟩ => ⟨S16384x4680, .f32⟩
  | _, _ => ⟨S16384x4680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩

abbrev nD : Nat := 1
abbrev τ : Topo := Topo.v7x

variable {F : FTy → Type} [FloatOps F]

class Facts₀ : Prop where
  slices_S16384x4680_S16384x8_0_0 : S16384x4680.Slices ![0, 0] S16384x8
  slices_S16384x4680_S16384x64_0_8 : S16384x4680.Slices ![0, 8] S16384x64
  slices_S16384x4680_S16384x512_0_72 : S16384x4680.Slices ![0, 72] S16384x512
  slices_S16384x4680_S16384x4096_0_584 : S16384x4680.Slices ![0, 584] S16384x4096
  bcast_S16384x8_S16384x8x1_0_1 : S16384x8.BroadcastsInDim S16384x8x1 (![0, 1] : Fin 2 → Fin S16384x8x1.rank)
  bcast_S16384x8_S16384x1x8_0_2 : S16384x8.BroadcastsInDim S16384x1x8 (![0, 2] : Fin 2 → Fin S16384x1x8.rank)
  bcast_S16384x8x1_S16384x8x8_0_1_2 : S16384x8x1.BroadcastsInDim S16384x8x8 (![0, 1, 2] : Fin 3 → Fin S16384x8x8.rank)
  bcast_S16384x1x8_S16384x8x8_0_1_2 : S16384x1x8.BroadcastsInDim S16384x8x8 (![0, 1, 2] : Fin 3 → Fin S16384x8x8.rank)
  shapeCasts_S16384x8x8_S16384x64 : S16384x8x8.ShapeCasts S16384x64
  bcast_S16384x64_S16384x1x64_0_2 : S16384x64.BroadcastsInDim S16384x1x64 (![0, 2] : Fin 2 → Fin S16384x1x64.rank)
  bcast_S16384x8x1_S16384x8x64_0_1_2 : S16384x8x1.BroadcastsInDim S16384x8x64 (![0, 1, 2] : Fin 3 → Fin S16384x8x64.rank)
  bcast_S16384x1x64_S16384x8x64_0_1_2 : S16384x1x64.BroadcastsInDim S16384x8x64 (![0, 1, 2] : Fin 3 → Fin S16384x8x64.rank)
  shapeCasts_S16384x8x64_S16384x512 : S16384x8x64.ShapeCasts S16384x512
  bcast_S16384x64_S16384x64x1_0_1 : S16384x64.BroadcastsInDim S16384x64x1 (![0, 1] : Fin 2 → Fin S16384x64x1.rank)
  bcast_S16384x64x1_S16384x64x8_0_1_2 : S16384x64x1.BroadcastsInDim S16384x64x8 (![0, 1, 2] : Fin 3 → Fin S16384x64x8.rank)
  bcast_S16384x1x8_S16384x64x8_0_1_2 : S16384x1x8.BroadcastsInDim S16384x64x8 (![0, 1, 2] : Fin 3 → Fin S16384x64x8.rank)
  shapeCasts_S16384x64x8_S16384x512 : S16384x64x8.ShapeCasts S16384x512
  bcast_S16384x512_S16384x1x512_0_2 : S16384x512.BroadcastsInDim S16384x1x512 (![0, 2] : Fin 2 → Fin S16384x1x512.rank)
  bcast_S16384x8x1_S16384x8x512_0_1_2 : S16384x8x1.BroadcastsInDim S16384x8x512 (![0, 1, 2] : Fin 3 → Fin S16384x8x512.rank)
  bcast_S16384x1x512_S16384x8x512_0_1_2 : S16384x1x512.BroadcastsInDim S16384x8x512 (![0, 1, 2] : Fin 3 → Fin S16384x8x512.rank)
  shapeCasts_S16384x8x512_S16384x4096 : S16384x8x512.ShapeCasts S16384x4096
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  shapeCasts_S16384x64x64_S16384x4096 : S16384x64x64.ShapeCasts S16384x4096
  bcast_S16384x512_S16384x512x1_0_1 : S16384x512.BroadcastsInDim S16384x512x1 (![0, 1] : Fin 2 → Fin S16384x512x1.rank)
  bcast_S16384x512x1_S16384x512x8_0_1_2 : S16384x512x1.BroadcastsInDim S16384x512x8 (![0, 1, 2] : Fin 3 → Fin S16384x512x8.rank)
  bcast_S16384x1x8_S16384x512x8_0_1_2 : S16384x1x8.BroadcastsInDim S16384x512x8 (![0, 1, 2] : Fin 3 → Fin S16384x512x8.rank)
  shapeCasts_S16384x512x8_S16384x4096 : S16384x512x8.ShapeCasts S16384x4096
  concatenates_S16384x8_S16384x64_S16384x512_S16384x4096_S16384x4680_d1 : Shape.Concatenates [S16384x8, S16384x64, S16384x512, S16384x4096] S16384x4680 1

variable [Facts₀]

class Facts : Prop extends Facts₀ where

variable [Facts]
-- ==== Proof.LibOuter.lean ====
/-
  The two keepdims reads of an outer product `w[:, :, None] * u[:, None, :]`.

  An `[n, a]` array cast to `[n, a, 1]` and then broadcast to `[n, a, b]` reads at `(e, c, d)` the operand at
  `(e, c)`; an `[n, b]` array cast to `[n, 1, b]` and then broadcast to `[n, a, b]` reads at `(e, c, d)` the
  operand at `(e, d)`. Each is the cast at its row-major position followed by the broadcast, which repeats the unit
  axis and leaves the other coordinates alone.
-/
import Idealize.ShloMosaic.Lib.Pipeline.Value
import Idealize.ShloMosaic.Lib.ValueIdx

noncomputable section

namespace Cert.LibOuter

open Idealize.ShloMosaic Idealize.ShloMosaic.ValueIdx

variable {α : Type}

/-- An `[n, a]` array cast to `[n, a, 1]` reads at `(e, c, u)` the operand at `(e, c)`. -/
theorem shapeCast_na_na1_apply {n a : ℕ} (x : (⟨2, ![n, a]⟩ : Shape).Idx → α)
    (h : (⟨2, ![n, a]⟩ : Shape).ShapeCasts ⟨3, ![n, a, 1]⟩) (e : Fin n) (c : Fin a) (u : Fin 1) :
    shapeCast ⟨3, ![n, a, 1]⟩ x h (ix3 e c u) = x (ix2 e c) :=
  shapeCast_apply x h _ _ (by
    have hu : u.val = 0 := by omega
    rw [Shape.rowMajor_val_three, Shape.rowMajor_val_two]
    show e.val * a + c.val = (e.val * a + c.val) * 1 + u.val
    rw [hu, Nat.mul_one, Nat.add_zero])

/-- An `[n, b]` array cast to `[n, 1, b]` reads at `(e, u, d)` the operand at `(e, d)`. -/
theorem shapeCast_nb_n1b_apply {n b : ℕ} (x : (⟨2, ![n, b]⟩ : Shape).Idx → α)
    (h : (⟨2, ![n, b]⟩ : Shape).ShapeCasts ⟨3, ![n, 1, b]⟩) (e : Fin n) (u : Fin 1) (d : Fin b) :
    shapeCast ⟨3, ![n, 1, b]⟩ x h (ix3 e u d) = x (ix2 e d) :=
  shapeCast_apply x h _ _ (by
    have hu : u.val = 0 := by omega
    rw [Shape.rowMajor_val_three, Shape.rowMajor_val_two]
    show e.val * b + d.val = (e.val * 1 + u.val) * b + d.val
    rw [hu, Nat.mul_one, Nat.add_zero])

/-- An `[n, a, 1]` array broadcast to `[n, a, b]` reads at `(e, c, d)` the operand at `(e, c, 0)`. -/
theorem broadcastTo_na1_nab_apply {n a b : ℕ} (v : (⟨3, ![n, a, 1]⟩ : Shape).Idx → α)
    (h : (⟨3, ![n, a, 1]⟩ : Shape).Broadcasts ⟨3, ![n, a, b]⟩) (e : Fin n) (c : Fin a) (d : Fin b) :
    broadcastTo ⟨3, ![n, a, b]⟩ v h (ix3 e c d) = v (ix3 e c (0 : Fin 1)) := by
  refine broadcastTo_apply v h (ix3 e c d) (ix3 e c (0 : Fin 1)) fun ax => ?_
  match ax with
  | ⟨0, _⟩ =>
    show e.val = if n = 1 then 0 else e.val
    split
    · have := e.isLt; omega
    · rfl
  | ⟨1, _⟩ =>
    show c.val = if a = 1 then 0 else c.val
    split
    · have := c.isLt; omega
    · rfl
  | ⟨2, _⟩ => rfl

/-- An `[n, 1, b]` array broadcast to `[n, a, b]` reads at `(e, c, d)` the operand at `(e, 0, d)`. -/
theorem broadcastTo_n1b_nab_apply {n a b : ℕ} (v : (⟨3, ![n, 1, b]⟩ : Shape).Idx → α)
    (h : (⟨3, ![n, 1, b]⟩ : Shape).Broadcasts ⟨3, ![n, a, b]⟩) (e : Fin n) (c : Fin a) (d : Fin b) :
    broadcastTo ⟨3, ![n, a, b]⟩ v h (ix3 e c d) = v (ix3 e (0 : Fin 1) d) := by
  refine broadcastTo_apply v h (ix3 e c d) (ix3 e (0 : Fin 1) d) fun ax => ?_
  match ax with
  | ⟨0, _⟩ =>
    show e.val = if n = 1 then 0 else e.val
    split
    · have := e.isLt; omega
    · rfl
  | ⟨1, _⟩ => rfl
  | ⟨2, _⟩ =>
    show d.val = if b = 1 then 0 else d.val
    split
    · have := d.isLt; omega
    · rfl

/-- The left factor of the outer product: `w[:, :, None]` spread over the last axis reads `w (e, c)`. -/
theorem outer_left_apply {n a b : ℕ} (w : (⟨2, ![n, a]⟩ : Shape).Idx → α)
    (h1 : (⟨2, ![n, a]⟩ : Shape).ShapeCasts ⟨3, ![n, a, 1]⟩) (h2 : (⟨3, ![n, a, 1]⟩ : Shape).Broadcasts ⟨3, ![n, a, b]⟩)
    (e : Fin n) (c : Fin a) (d : Fin b) :
    broadcastTo ⟨3, ![n, a, b]⟩ (shapeCast ⟨3, ![n, a, 1]⟩ w h1) h2 (ix3 e c d) = w (ix2 e c) := by
  rw [broadcastTo_na1_nab_apply, shapeCast_na_na1_apply]

/-- The right factor of the outer product: `u[:, None, :]` spread over the middle axis reads `u (e, d)`. -/
theorem outer_right_apply {n a b : ℕ} (u : (⟨2, ![n, b]⟩ : Shape).Idx → α)
    (h1 : (⟨2, ![n, b]⟩ : Shape).ShapeCasts ⟨3, ![n, 1, b]⟩) (h2 : (⟨3, ![n, 1, b]⟩ : Shape).Broadcasts ⟨3, ![n, a, b]⟩)
    (e : Fin n) (c : Fin a) (d : Fin b) :
    broadcastTo ⟨3, ![n, a, b]⟩ (shapeCast ⟨3, ![n, 1, b]⟩ u h1) h2 (ix3 e c d) = u (ix2 e d) := by
  rw [broadcastTo_n1b_nab_apply, shapeCast_nb_n1b_apply]

end Cert.LibOuter

end
-- ==== Proof.LibBandOuter.lean ====
/-
  The outer product of two column bands of a pair of matrices, flattened:
  `X[:, oa : oa + a, None] * Y[:, None, ob : ob + b]` reshaped from `[n, a, b]` to `[n, a·b]`.

  At row `e` and flat position `q` it is `X (e, oa + q / b) · Y (e, ob + q % b)`. The reshape keeps the row-major
  position, so `q = c·b + d` names the pair `(c, d)`; the left factor does not depend on `d` and the right factor does
  not depend on `c`. Two spellings of the same value are read: a cast that adds the unit axis followed by a broadcast
  over it, and two `broadcast_in_dim`s (the first adds the unit axis, the second spreads over it).
-/
import Idealize.ShloMosaic.Lib.ValueLayout
import Idealize.ShloMosaic.Lib.ValueIdx
import proofs.«122024_j82222853915370_1_alg».proof.Proof.LibOuter

noncomputable section

namespace Cert.LibBandOuter

open Idealize.ShloMosaic Idealize.ShloMosaic.ValueIdx

variable {α : Type}

/-! ## The two `broadcast_in_dim`s that add a unit axis, and the two that spread over it -/

/-- `[n, a] → [n, a, 1]` along dims `[0, 1]` reads at `(e, c, u)` the operand at `(e, c)`. -/
theorem bcast_na_na1_apply {n a : ℕ} (w : (⟨2, ![n, a]⟩ : Shape).Idx → α)
    (h : (⟨2, ![n, a]⟩ : Shape).BroadcastsInDim ⟨3, ![n, a, 1]⟩ (![0, 1] : Fin 2 → Fin 3))
    (e : Fin n) (c : Fin a) (u : Fin 1) :
    broadcastInDim ⟨3, ![n, a, 1]⟩ ![0, 1] h w (ix3 e c u) = w (ix2 e c) := by
  refine broadcastInDim_apply _ h w (ix3 e c u) (ix2 e c) fun ax => ?_
  match ax with
  | ⟨0, _⟩ =>
    show e.val = if n = 1 then 0 else e.val
    split
    · have := e.isLt; omega
    · rfl
  | ⟨1, _⟩ =>
    show c.val = if a = 1 then 0 else c.val
    split
    · have := c.isLt; omega
    · rfl

/-- `[n, b] → [n, 1, b]` along dims `[0, 2]` reads at `(e, u, d)` the operand at `(e, d)`. -/
theorem bcast_nb_n1b_apply {n b : ℕ} (w : (⟨2, ![n, b]⟩ : Shape).Idx → α)
    (h : (⟨2, ![n, b]⟩ : Shape).BroadcastsInDim ⟨3, ![n, 1, b]⟩ (![0, 2] : Fin 2 → Fin 3))
    (e : Fin n) (u : Fin 1) (d : Fin b) :
    broadcastInDim ⟨3, ![n, 1, b]⟩ ![0, 2] h w (ix3 e u d) = w (ix2 e d) := by
  refine broadcastInDim_apply _ h w (ix3 e u d) (ix2 e d) fun ax => ?_
  match ax with
  | ⟨0, _⟩ =>
    show e.val = if n = 1 then 0 else e.val
    split
    · have := e.isLt; omega
    · rfl
  | ⟨1, _⟩ =>
    show d.val = if b = 1 then 0 else d.val
    split
    · have := d.isLt; omega
    · rfl

/-- `[n, a, 1] → [n, a, b]` along dims `[0, 1, 2]` reads at `(e, c, d)` the operand at `(e, c, 0)`. -/
theorem bcast_na1_nab_apply {n a b : ℕ} (v : (⟨3, ![n, a, 1]⟩ : Shape).Idx → α)
    (h : (⟨3, ![n, a, 1]⟩ : Shape).BroadcastsInDim ⟨3, ![n, a, b]⟩ (![0, 1, 2] : Fin 3 → Fin 3))
    (e : Fin n) (c : Fin a) (d : Fin b) :
    broadcastInDim ⟨3, ![n, a, b]⟩ ![0, 1, 2] h v (ix3 e c d) = v (ix3 e c (0 : Fin 1)) := by
  refine broadcastInDim_apply _ h v (ix3 e c d) (ix3 e c (0 : Fin 1)) fun ax => ?_
  match ax with
  | ⟨0, _⟩ =>
    show e.val = if n = 1 then 0 else e.val
    split
    · have := e.isLt; omega
    · rfl
  | ⟨1, _⟩ =>
    show c.val = if a = 1 then 0 else c.val
    split
    · have := c.isLt; omega
    · rfl
  | ⟨2, _⟩ => rfl

/-- `[n, 1, b] → [n, a, b]` along dims `[0, 1, 2]` reads at `(e, c, d)` the operand at `(e, 0, d)`. -/
theorem bcast_n1b_nab_apply {n a b : ℕ} (v : (⟨3, ![n, 1, b]⟩ : Shape).Idx → α)
    (h : (⟨3, ![n, 1, b]⟩ : Shape).BroadcastsInDim ⟨3, ![n, a, b]⟩ (![0, 1, 2] : Fin 3 → Fin 3))
    (e : Fin n) (c : Fin a) (d : Fin b) :
    broadcastInDim ⟨3, ![n, a, b]⟩ ![0, 1, 2] h v (ix3 e c d) = v (ix3 e (0 : Fin 1) d) := by
  refine broadcastInDim_apply _ h v (ix3 e c d) (ix3 e (0 : Fin 1) d) fun ax => ?_
  match ax with
  | ⟨0, _⟩ =>
    show e.val = if n = 1 then 0 else e.val
    split
    · have := e.isLt; omega
    · rfl
  | ⟨1, _⟩ => rfl
  | ⟨2, _⟩ =>
    show d.val = if b = 1 then 0 else d.val
    split
    · have := d.isLt; omega
    · rfl

/-! ## The reshape that flattens the last two axes -/

/-- `[n, a, b] → [n, a·b]` reads at `(e, q)` the operand at `(e, c, d)` when `q = c·b + d`: both have row-major
    position `e·a·b + c·b + d`. -/
theorem flatten_apply {n a b ab : ℕ} (hab : ab = a * b) (x : (⟨3, ![n, a, b]⟩ : Shape).Idx → α)
    (h : (⟨3, ![n, a, b]⟩ : Shape).ShapeCasts ⟨2, ![n, ab]⟩)
    (e : Fin n) (q : Fin ab) (c : Fin a) (d : Fin b) (hq : q.val = c.val * b + d.val) :
    shapeCast ⟨2, ![n, ab]⟩ x h (ix2 e q) = x (ix3 e c d) :=
  shapeCast_apply x h _ _ (by
    rw [Shape.rowMajor_val_three, Shape.rowMajor_val_two]
    show (e.val * a + c.val) * b + d.val = e.val * ab + q.val
    rw [hq, hab, Nat.add_mul, Nat.mul_assoc, Nat.add_assoc])

/-- The pair `(q / b, q % b)` a flat position `q < a·b` names. -/
theorem div_lt_of_flat {a b ab : ℕ} (hab : ab = a * b) (q : Fin ab) : q.val / b < a := by
  have hq : q.val < b * a := by rw [Nat.mul_comm, ← hab]; exact q.isLt
  exact Nat.div_lt_of_lt_mul hq

theorem mod_lt_of_flat {a b ab : ℕ} (hab : ab = a * b) (q : Fin ab) : q.val % b < b := by
  refine Nat.mod_lt _ (Nat.pos_of_ne_zero fun hb => ?_)
  have hq : q.val < a * b := Nat.lt_of_lt_of_eq q.isLt hab
  rw [hb, Nat.mul_zero] at hq
  exact Nat.not_lt_zero _ hq

/-! ## The flattened outer product of two column bands, in both spellings, over the extended reals -/

section Ideal
variable {φ : FTy}

/-- A cast to `[n, a, 1]` and `[n, 1, b]`, broadcasts to `[n, a, b]`, the product, the flattening cast: at `(e, q)` it is
    `X (e, oa + q / b) · Y (e, ob + q % b)`. -/
theorem cast_band_outer_apply {n W a b ab : ℕ} (hab : ab = a * b) (oa ob : ℕ)
    (X Y : FVec Ideal ⟨2, ![n, W]⟩ φ)
    (hsa : (⟨2, ![n, W]⟩ : Shape).Slices ![0, oa] ⟨2, ![n, a]⟩) (hsb : (⟨2, ![n, W]⟩ : Shape).Slices ![0, ob] ⟨2, ![n, b]⟩)
    (h1 : (⟨2, ![n, a]⟩ : Shape).ShapeCasts ⟨3, ![n, a, 1]⟩) (h2 : (⟨3, ![n, a, 1]⟩ : Shape).Broadcasts ⟨3, ![n, a, b]⟩)
    (h3 : (⟨2, ![n, b]⟩ : Shape).ShapeCasts ⟨3, ![n, 1, b]⟩) (h4 : (⟨3, ![n, 1, b]⟩ : Shape).Broadcasts ⟨3, ![n, a, b]⟩)
    (h5 : (⟨3, ![n, a, b]⟩ : Shape).ShapeCasts ⟨2, ![n, ab]⟩)
    (e : Fin n) (q : Fin ab) (ka kb : Fin W) (hka : ka.val = oa + q.val / b) (hkb : kb.val = ob + q.val % b) :
    shapeCast ⟨2, ![n, ab]⟩
        (mulf (broadcastTo ⟨3, ![n, a, b]⟩ (shapeCast ⟨3, ![n, a, 1]⟩ (extractStridedSlice ⟨2, ![n, a]⟩ ![0, oa] X hsa) h1) h2)
          (broadcastTo ⟨3, ![n, a, b]⟩ (shapeCast ⟨3, ![n, 1, b]⟩ (extractStridedSlice ⟨2, ![n, b]⟩ ![0, ob] Y hsb) h3) h4))
        h5 (ix2 e q)
      = X (ix2 e ka) * Y (ix2 e kb) := by
  rw [flatten_apply hab _ h5 e q ⟨q.val / b, div_lt_of_flat hab q⟩ ⟨q.val % b, mod_lt_of_flat hab q⟩
      (Nat.div_add_mod' q.val b).symm,
    mulf_apply, Cert.LibOuter.outer_left_apply, Cert.LibOuter.outer_right_apply,
    slice2_axis1_apply oa X hsa e _ ka hka, slice2_axis1_apply ob Y hsb e _ kb hkb]

/-- The same value spelt with `broadcast_in_dim`s. -/
theorem bcast_band_outer_apply {n W a b ab : ℕ} (hab : ab = a * b) (oa ob : ℕ)
    (X Y : FVec Ideal ⟨2, ![n, W]⟩ φ)
    (hsa : (⟨2, ![n, W]⟩ : Shape).Slices ![0, oa] ⟨2, ![n, a]⟩) (hsb : (⟨2, ![n, W]⟩ : Shape).Slices ![0, ob] ⟨2, ![n, b]⟩)
    (h1 : (⟨2, ![n, a]⟩ : Shape).BroadcastsInDim ⟨3, ![n, a, 1]⟩ (![0, 1] : Fin 2 → Fin 3))
    (h2 : (⟨3, ![n, a, 1]⟩ : Shape).BroadcastsInDim ⟨3, ![n, a, b]⟩ (![0, 1, 2] : Fin 3 → Fin 3))
    (h3 : (⟨2, ![n, b]⟩ : Shape).BroadcastsInDim ⟨3, ![n, 1, b]⟩ (![0, 2] : Fin 2 → Fin 3))
    (h4 : (⟨3, ![n, 1, b]⟩ : Shape).BroadcastsInDim ⟨3, ![n, a, b]⟩ (![0, 1, 2] : Fin 3 → Fin 3))
    (h5 : (⟨3, ![n, a, b]⟩ : Shape).ShapeCasts ⟨2, ![n, ab]⟩)
    (e : Fin n) (q : Fin ab) (ka kb : Fin W) (hka : ka.val = oa + q.val / b) (hkb : kb.val = ob + q.val % b) :
    shapeCast ⟨2, ![n, ab]⟩
        (mulf (broadcastInDim ⟨3, ![n, a, b]⟩ ![0, 1, 2] h2
            (broadcastInDim ⟨3, ![n, a, 1]⟩ ![0, 1] h1 (extractStridedSlice ⟨2, ![n, a]⟩ ![0, oa] X hsa)))
          (broadcastInDim ⟨3, ![n, a, b]⟩ ![0, 1, 2] h4
            (broadcastInDim ⟨3, ![n, 1, b]⟩ ![0, 2] h3 (extractStridedSlice ⟨2, ![n, b]⟩ ![0, ob] Y hsb))))
        h5 (ix2 e q)
      = X (ix2 e ka) * Y (ix2 e kb) := by
  rw [flatten_apply hab _ h5 e q ⟨q.val / b, div_lt_of_flat hab q⟩ ⟨q.val % b, mod_lt_of_flat hab q⟩
      (Nat.div_add_mod' q.val b).symm,
    mulf_apply, bcast_na1_nab_apply, bcast_na_na1_apply, bcast_n1b_nab_apply, bcast_nb_n1b_apply,
    slice2_axis1_apply oa X hsa e _ ka hka, slice2_axis1_apply ob Y hsb e _ kb hkb]

end Ideal

end Cert.LibBandOuter

end
-- ==== Proof.LibConcat4.lean ====
/-
  Four matrices of one height laid side by side: the concatenation along the column axis of `[n, w0]`, `[n, w1]`,
  `[n, w2]` and `[n, w3]` into `[n, W]`. At `(e, j)` it is the piece whose span of columns holds `j`, read in row
  `e` at `j` less the widths of the pieces before it.
-/
import Idealize.ShloMosaic.Lib.Pipeline.Value
import Idealize.ShloMosaic.Lib.ValueIdx

noncomputable section

namespace Cert.LibConcat4

open Idealize.ShloMosaic Idealize.ShloMosaic.ValueIdx

variable {α : Type}

/-- Column `j` in the span of the first piece. -/
theorem concat4_apply_0 {n w0 w1 w2 w3 W : ℕ}
    (x0 : (⟨2, ![n, w0]⟩ : Shape).Idx → α) (x1 : (⟨2, ![n, w1]⟩ : Shape).Idx → α)
    (x2 : (⟨2, ![n, w2]⟩ : Shape).Idx → α) (x3 : (⟨2, ![n, w3]⟩ : Shape).Idx → α)
    (h : Shape.Concatenates [⟨2, ![n, w0]⟩, ⟨2, ![n, w1]⟩, ⟨2, ![n, w2]⟩, ⟨2, ![n, w3]⟩] ⟨2, ![n, W]⟩ 1)
    (e : Fin n) (j : Fin W) (k : Fin w0) (hk : j.val = k.val) :
    concatenate ⟨2, ![n, W]⟩ 1 [⟨⟨2, ![n, w0]⟩, x0⟩, ⟨⟨2, ![n, w1]⟩, x1⟩, ⟨⟨2, ![n, w2]⟩, x2⟩, ⟨⟨2, ![n, w3]⟩, x3⟩] h (ix2 e j)
      = x0 (ix2 e k) := by
  refine concatenate_apply_piece (t := ⟨2, ![n, W]⟩) (1 : Fin (⟨2, ![n, W]⟩ : Shape).rank)
    [⟨⟨2, ![n, w0]⟩, x0⟩, ⟨⟨2, ![n, w1]⟩, x1⟩, ⟨⟨2, ![n, w2]⟩, x2⟩, ⟨⟨2, ![n, w3]⟩, x3⟩] h (ix2 e j) 0
    (by show 0 < 4; omega) ⟨2, ![n, w0]⟩ x0 rfl rfl 0 rfl (ix2 e k) (fun b hb => ?_)
    (by show 0 + k.val = j.val; omega)
  match b with
  | ⟨0, _⟩ => rfl
  | ⟨1, _⟩ => exact (hb (Fin.ext rfl)).elim

/-- Column `j` in the span of the second piece, `w0` columns in. -/
theorem concat4_apply_1 {n w0 w1 w2 w3 W : ℕ}
    (x0 : (⟨2, ![n, w0]⟩ : Shape).Idx → α) (x1 : (⟨2, ![n, w1]⟩ : Shape).Idx → α)
    (x2 : (⟨2, ![n, w2]⟩ : Shape).Idx → α) (x3 : (⟨2, ![n, w3]⟩ : Shape).Idx → α)
    (h : Shape.Concatenates [⟨2, ![n, w0]⟩, ⟨2, ![n, w1]⟩, ⟨2, ![n, w2]⟩, ⟨2, ![n, w3]⟩] ⟨2, ![n, W]⟩ 1)
    (e : Fin n) (j : Fin W) (k : Fin w1) (hk : j.val = w0 + k.val) :
    concatenate ⟨2, ![n, W]⟩ 1 [⟨⟨2, ![n, w0]⟩, x0⟩, ⟨⟨2, ![n, w1]⟩, x1⟩, ⟨⟨2, ![n, w2]⟩, x2⟩, ⟨⟨2, ![n, w3]⟩, x3⟩] h (ix2 e j)
      = x1 (ix2 e k) := by
  refine concatenate_apply_piece (t := ⟨2, ![n, W]⟩) (1 : Fin (⟨2, ![n, W]⟩ : Shape).rank)
    [⟨⟨2, ![n, w0]⟩, x0⟩, ⟨⟨2, ![n, w1]⟩, x1⟩, ⟨⟨2, ![n, w2]⟩, x2⟩, ⟨⟨2, ![n, w3]⟩, x3⟩] h (ix2 e j) 1
    (by show 1 < 4; omega) ⟨2, ![n, w1]⟩ x1 rfl rfl (w0 + 0) rfl (ix2 e k) (fun b hb => ?_)
    (by show w0 + 0 + k.val = j.val; omega)
  match b with
  | ⟨0, _⟩ => rfl
  | ⟨1, _⟩ => exact (hb (Fin.ext rfl)).elim

/-- Column `j` in the span of the third piece, `w0 + w1` columns in. -/
theorem concat4_apply_2 {n w0 w1 w2 w3 W : ℕ}
    (x0 : (⟨2, ![n, w0]⟩ : Shape).Idx → α) (x1 : (⟨2, ![n, w1]⟩ : Shape).Idx → α)
    (x2 : (⟨2, ![n, w2]⟩ : Shape).Idx → α) (x3 : (⟨2, ![n, w3]⟩ : Shape).Idx → α)
    (h : Shape.Concatenates [⟨2, ![n, w0]⟩, ⟨2, ![n, w1]⟩, ⟨2, ![n, w2]⟩, ⟨2, ![n, w3]⟩] ⟨2, ![n, W]⟩ 1)
    (e : Fin n) (j : Fin W) (k : Fin w2) (hk : j.val = w0 + w1 + k.val) :
    concatenate ⟨2, ![n, W]⟩ 1 [⟨⟨2, ![n, w0]⟩, x0⟩, ⟨⟨2, ![n, w1]⟩, x1⟩, ⟨⟨2, ![n, w2]⟩, x2⟩, ⟨⟨2, ![n, w3]⟩, x3⟩] h (ix2 e j)
      = x2 (ix2 e k) := by
  refine concatenate_apply_piece (t := ⟨2, ![n, W]⟩) (1 : Fin (⟨2, ![n, W]⟩ : Shape).rank)
    [⟨⟨2, ![n, w0]⟩, x0⟩, ⟨⟨2, ![n, w1]⟩, x1⟩, ⟨⟨2, ![n, w2]⟩, x2⟩, ⟨⟨2, ![n, w3]⟩, x3⟩] h (ix2 e j) 2
    (by show 2 < 4; omega) ⟨2, ![n, w2]⟩ x2 rfl rfl (w0 + (w1 + 0)) rfl (ix2 e k) (fun b hb => ?_)
    (by show w0 + (w1 + 0) + k.val = j.val; omega)
  match b with
  | ⟨0, _⟩ => rfl
  | ⟨1, _⟩ => exact (hb (Fin.ext rfl)).elim

/-- Column `j` in the span of the fourth piece, `w0 + w1 + w2` columns in. -/
theorem concat4_apply_3 {n w0 w1 w2 w3 W : ℕ}
    (x0 : (⟨2, ![n, w0]⟩ : Shape).Idx → α) (x1 : (⟨2, ![n, w1]⟩ : Shape).Idx → α)
    (x2 : (⟨2, ![n, w2]⟩ : Shape).Idx → α) (x3 : (⟨2, ![n, w3]⟩ : Shape).Idx → α)
    (h : Shape.Concatenates [⟨2, ![n, w0]⟩, ⟨2, ![n, w1]⟩, ⟨2, ![n, w2]⟩, ⟨2, ![n, w3]⟩] ⟨2, ![n, W]⟩ 1)
    (e : Fin n) (j : Fin W) (k : Fin w3) (hk : j.val = w0 + w1 + w2 + k.val) :
    concatenate ⟨2, ![n, W]⟩ 1 [⟨⟨2, ![n, w0]⟩, x0⟩, ⟨⟨2, ![n, w1]⟩, x1⟩, ⟨⟨2, ![n, w2]⟩, x2⟩, ⟨⟨2, ![n, w3]⟩, x3⟩] h (ix2 e j)
      = x3 (ix2 e k) := by
  refine concatenate_apply_piece (t := ⟨2, ![n, W]⟩) (1 : Fin (⟨2, ![n, W]⟩ : Shape).rank)
    [⟨⟨2, ![n, w0]⟩, x0⟩, ⟨⟨2, ![n, w1]⟩, x1⟩, ⟨⟨2, ![n, w2]⟩, x2⟩, ⟨⟨2, ![n, w3]⟩, x3⟩] h (ix2 e j) 3
    (by show 3 < 4; omega) ⟨2, ![n, w3]⟩ x3 rfl rfl (w0 + (w1 + (w2 + 0))) rfl (ix2 e k) (fun b hb => ?_)
    (by show w0 + (w1 + (w2 + 0)) + k.val = j.val; omega)
  match b with
  | ⟨0, _⟩ => rfl
  | ⟨1, _⟩ => exact (hb (Fin.ext rfl)).elim

end Cert.LibConcat4

end
-- ==== Proof.ChenRow.lean ====
/-
  Chen's relation on one row.

  A row of 4680 numbers is four tensors over an 8-letter alphabet laid end to end: level 1 in columns 0–7, level 2
  (8 × 8, row-major) in columns 8–71, level 3 (8 × 8 × 8) in columns 72–583 and level 4 (8⁴) in columns 584–4679. The
  product of two such rows `a` and `b` has at level `k` the sum `a_k + b_k + Σ_{i=1}^{k-1} a_i ⊗ b_{k-i}`, summed in
  that order from the left. A flat position `q` inside level `k` splits as `q = c · 8^(k-i) + d`, and there
  `(a_i ⊗ b_{k-i})_q = (a_i)_c · (b_{k-i})_d`.
-/
import Idealize.ShloMosaic.PureOps.Ideal
import Idealize.ShloMosaic.Lib.ValueIdx

noncomputable section

namespace Cert.Chen

open Idealize.ShloMosaic Idealize.ShloMosaic.ValueIdx

/-- Column `j` of the product of the rows `a` and `b`. -/
def row (a b : Fin 4680 → EReal) (j : Fin 4680) : EReal :=
  if h1 : j.val < 8 then a j + b j
  else if h2 : j.val < 72 then
    (a j + b j)
      + a ⟨(j.val - 8) / 8, by have := j.isLt; omega⟩ * b ⟨(j.val - 8) % 8, by have := j.isLt; omega⟩
  else if h3 : j.val < 584 then
    ((a j + b j)
      + a ⟨(j.val - 72) / 64, by have := j.isLt; omega⟩ * b ⟨8 + (j.val - 72) % 64, by have := j.isLt; omega⟩)
      + a ⟨8 + (j.val - 72) / 8, by have := j.isLt; omega⟩ * b ⟨(j.val - 72) % 8, by have := j.isLt; omega⟩
  else
    (((a j + b j)
      + a ⟨(j.val - 584) / 512, by have := j.isLt; omega⟩ * b ⟨72 + (j.val - 584) % 512, by have := j.isLt; omega⟩)
      + a ⟨8 + (j.val - 584) / 64, by have := j.isLt; omega⟩ * b ⟨8 + (j.val - 584) % 64, by have := j.isLt; omega⟩)
      + a ⟨72 + (j.val - 584) / 8, by have := j.isLt; omega⟩ * b ⟨(j.val - 584) % 8, by have := j.isLt; omega⟩

/-- The product taken row by row of two `[n, 4680]` arrays. -/
def rows {n : ℕ} (X Y : FVec Ideal ⟨2, ![n, 4680]⟩ .f32) : FVec Ideal ⟨2, ![n, 4680]⟩ .f32 :=
  fun i => row (fun k => X (ix2 (i 0) k)) (fun k => Y (ix2 (i 0) k)) (i 1)

theorem rows_apply {n : ℕ} (X Y : FVec Ideal ⟨2, ![n, 4680]⟩ .f32) (e : Fin n) (j : Fin 4680) :
    rows X Y (ix2 e j) = row (fun k => X (ix2 e k)) (fun k => Y (ix2 e k)) j := rfl

end Cert.Chen

end
-- ==== Proof.KernelBlock.lean ====
/-
  What the kernel body stores, entry by entry.

  The body loads a 256-row block of each input, cuts each row into its four levels, forms level `k` of the product as
  `a_k + b_k` plus the flattened outer products `a_i ⊗ b_{k-i}` (`i = 1 … k-1`, added in that order), and stores the four
  levels side by side. Read at row `p` and column `j` of the block, the stored value is column `j` of Chen's product of
  row `p` of the first block with row `p` of the second.
-/
import proofs.«122024_j82222853915370_1_alg».proof.Proof.Gen.KernelIdeal.Skeleton
import proofs.«122024_j82222853915370_1_alg».proof.Proof.LibBandOuter
import proofs.«122024_j82222853915370_1_alg».proof.Proof.LibConcat4
import proofs.«122024_j82222853915370_1_alg».proof.Proof.ChenRow

noncomputable section

namespace Cert.KernelIdeal.Block

open Cert.KernelIdeal Cert.KernelIdeal.Gen Idealize.ShloMosaic Idealize.ShloMosaic.ValueIdx
open Cert.LibBandOuter Cert.LibConcat4

variable (x0 x1 : Vec Ideal S256x4680 .f32) (p : Fin 256)

/-- Level 1 of the stored block: the sum of the two level-1 bands. -/
theorem level1_apply (q : Fin 8) (j : Fin 4680) (hj : j.val = q.val) :
    k0_pay8 (F := Ideal) x0 x1 (ix2 p q) = x0 (ix2 p j) + x1 (ix2 p j) := by
  simp only [k0_pay8, k0_pay2, k0_pay5, addf_apply]
  rw [slice2_axis1_apply 0 x0 _ p q j (by omega), slice2_axis1_apply 0 x1 _ p q j (by omega)]

/-- Level 2: the level-2 bands' sum plus `a_1 ⊗ b_1`. -/
theorem level2_apply (q : Fin 64) (j ka kb : Fin 4680) (hj : j.val = 8 + q.val)
    (hka : ka.val = q.val / 8) (hkb : kb.val = q.val % 8) :
    k0_pay9 (F := Ideal) x0 x1 (ix2 p q) = (x0 (ix2 p j) + x1 (ix2 p j)) + x0 (ix2 p ka) * x1 (ix2 p kb) := by
  simp only [k0_pay9, k0_pay2, k0_pay3, k0_pay5, k0_pay6, addf_apply]
  rw [slice2_axis1_apply 8 x0 _ p q j hj, slice2_axis1_apply 8 x1 _ p q j hj,
    cast_band_outer_apply (n := 256) (W := 4680) (a := 8) (b := 8) (ab := 64) rfl 0 0 x0 x1 _ _ _ _ _ _ _ p q ka kb
      (by omega) (by omega)]

/-- Level 3: the level-3 bands' sum plus `a_1 ⊗ b_2` plus `a_2 ⊗ b_1`. -/
theorem level3_apply (q : Fin 512) (j ka kb la lb : Fin 4680) (hj : j.val = 72 + q.val)
    (hka : ka.val = q.val / 64) (hkb : kb.val = 8 + q.val % 64)
    (hla : la.val = 8 + q.val / 8) (hlb : lb.val = q.val % 8) :
    k0_pay10 (F := Ideal) x0 x1 (ix2 p q)
      = ((x0 (ix2 p j) + x1 (ix2 p j)) + x0 (ix2 p ka) * x1 (ix2 p kb)) + x0 (ix2 p la) * x1 (ix2 p lb) := by
  simp only [k0_pay10, k0_pay2, k0_pay3, k0_pay4, k0_pay5, k0_pay6, k0_pay7, addf_apply]
  rw [slice2_axis1_apply 72 x0 _ p q j hj, slice2_axis1_apply 72 x1 _ p q j hj,
    cast_band_outer_apply (n := 256) (W := 4680) (a := 8) (b := 64) (ab := 512) rfl 0 8 x0 x1 _ _ _ _ _ _ _ p q ka kb
      (by omega) hkb,
    cast_band_outer_apply (n := 256) (W := 4680) (a := 64) (b := 8) (ab := 512) rfl 8 0 x0 x1 _ _ _ _ _ _ _ p q la lb
      hla (by omega)]

/-- Level 4: the level-4 bands' sum plus `a_1 ⊗ b_3`, `a_2 ⊗ b_2` and `a_3 ⊗ b_1`. -/
theorem level4_apply (q : Fin 4096) (j ka kb la lb ma mb : Fin 4680) (hj : j.val = 584 + q.val)
    (hka : ka.val = q.val / 512) (hkb : kb.val = 72 + q.val % 512)
    (hla : la.val = 8 + q.val / 64) (hlb : lb.val = 8 + q.val % 64)
    (hma : ma.val = 72 + q.val / 8) (hmb : mb.val = q.val % 8) :
    addf (k0_pay11 (F := Ideal) x0 x1) (k0_pay12 (F := Ideal) x0 x1) (ix2 p q)
      = (((x0 (ix2 p j) + x1 (ix2 p j)) + x0 (ix2 p ka) * x1 (ix2 p kb)) + x0 (ix2 p la) * x1 (ix2 p lb))
        + x0 (ix2 p ma) * x1 (ix2 p mb) := by
  simp only [k0_pay11, k0_pay12, k0_pay2, k0_pay3, k0_pay4, k0_pay5, k0_pay6, k0_pay7, addf_apply]
  rw [slice2_axis1_apply 584 x0 _ p q j hj, slice2_axis1_apply 584 x1 _ p q j hj,
    cast_band_outer_apply (n := 256) (W := 4680) (a := 8) (b := 512) (ab := 4096) rfl 0 72 x0 x1 _ _ _ _ _ _ _ p q ka kb
      (by omega) hkb,
    cast_band_outer_apply (n := 256) (W := 4680) (a := 64) (b := 64) (ab := 4096) rfl 8 8 x0 x1 _ _ _ _ _ _ _ p q la lb
      hla hlb,
    cast_band_outer_apply (n := 256) (W := 4680) (a := 512) (b := 8) (ab := 4096) rfl 72 0 x0 x1 _ _ _ _ _ _ _ p q ma mb
      hma (by omega)]

/-- The stored block at `(p, j)` is column `j` of the product of the blocks' rows `p`. -/
theorem stored_apply (j : Fin 4680) :
    k0_pay1 (F := Ideal) (k0_pay8 x0 x1) (k0_pay9 x0 x1) (k0_pay10 x0 x1) (k0_pay11 x0 x1) (k0_pay12 x0 x1) (ix2 p j)
      = Chen.row (fun k => x0 (ix2 p k)) (fun k => x1 (ix2 p k)) j := by
  have hj := j.isLt
  simp only [k0_pay1]
  unfold Chen.row
  by_cases h1 : j.val < 8
  · rw [dif_pos h1]
    refine (concat4_apply_0 (k0_pay8 (F := Ideal) x0 x1) (k0_pay9 (F := Ideal) x0 x1) (k0_pay10 (F := Ideal) x0 x1)
      (addf (k0_pay11 (F := Ideal) x0 x1) (k0_pay12 (F := Ideal) x0 x1)) _ p j ⟨j.val, h1⟩ rfl).trans ?_
    exact level1_apply x0 x1 p ⟨j.val, h1⟩ j rfl
  · rw [dif_neg h1]
    by_cases h2 : j.val < 72
    · rw [dif_pos h2]
      refine (concat4_apply_1 (k0_pay8 (F := Ideal) x0 x1) (k0_pay9 (F := Ideal) x0 x1) (k0_pay10 (F := Ideal) x0 x1)
        (addf (k0_pay11 (F := Ideal) x0 x1) (k0_pay12 (F := Ideal) x0 x1)) _ p j ⟨j.val - 8, by omega⟩
        (by show j.val = 8 + (j.val - 8); omega)).trans ?_
      exact level2_apply x0 x1 p ⟨j.val - 8, by omega⟩ j _ _ (by show j.val = 8 + (j.val - 8); omega) rfl rfl
    · rw [dif_neg h2]
      by_cases h3 : j.val < 584
      · rw [dif_pos h3]
        refine (concat4_apply_2 (k0_pay8 (F := Ideal) x0 x1) (k0_pay9 (F := Ideal) x0 x1) (k0_pay10 (F := Ideal) x0 x1)
          (addf (k0_pay11 (F := Ideal) x0 x1) (k0_pay12 (F := Ideal) x0 x1)) _ p j ⟨j.val - 72, by omega⟩
          (by show j.val = 8 + 64 + (j.val - 72); omega)).trans ?_
        exact level3_apply x0 x1 p ⟨j.val - 72, by omega⟩ j _ _ _ _ (by show j.val = 72 + (j.val - 72); omega)
          rfl rfl rfl rfl
      · rw [dif_neg h3]
        refine (concat4_apply_3 (k0_pay8 (F := Ideal) x0 x1) (k0_pay9 (F := Ideal) x0 x1) (k0_pay10 (F := Ideal) x0 x1)
          (addf (k0_pay11 (F := Ideal) x0 x1) (k0_pay12 (F := Ideal) x0 x1)) _ p j ⟨j.val - 584, by omega⟩
          (by show j.val = 8 + 64 + 512 + (j.val - 584); omega)).trans ?_
        exact level4_apply x0 x1 p ⟨j.val - 584, by omega⟩ j _ _ _ _ _ _ (by show j.val = 584 + (j.val - 584); omega)
          rfl rfl rfl rfl rfl rfl

end Cert.KernelIdeal.Block

end
-- ==== Proof.KernelArray.lean ====
/-
  From the kernel's blocks to its whole result.

  The grid has 64 points; point `t` fetches rows `256 t … 256 t + 255` of both inputs, all 4680 columns, and writes
  back the same rows of the output. Chen's product is taken row by row, so the block a point stores is that band of
  rows of the row-by-row product of the whole inputs. The 64 bands tile the 16384 rows: row `r` lies in the band of
  point `r / 256`. Hence the output array ends as the row-by-row product of the two arguments.
-/
import proofs.«122024_j82222853915370_1_alg».proof.Proof.Gen.KernelIdeal.Value
import proofs.«122024_j82222853915370_1_alg».proof.Proof.KernelBlock

set_option maxRecDepth 16384

noncomputable section

namespace Cert.KernelIdeal.Result

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- At grid point `t` every window's block is block `(t, 0)` of its array (decided over the 64 points). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A pair of blocks whose row `p` is row `r` of the arrays `A` and `B` stores, in row `p`, row `r` of the row-by-row
    product of `A` and `B`. -/
theorem block_rows (A B : FVec Ideal S16384x4680 .f32) (x0 x1 : Vec Ideal S256x4680 .f32)
    (p : Fin 256) (r : Fin 16384) (j : Fin 4680)
    (h0 : ∀ k : Fin 4680, x0 (ix2 p k) = A (ix2 r k)) (h1 : ∀ k : Fin 4680, x1 (ix2 p k) = B (ix2 r k)) :
    k0_pay1 (F := Ideal) (k0_pay8 x0 x1) (k0_pay9 x0 x1) (k0_pay10 x0 x1) (k0_pay11 x0 x1) (k0_pay12 x0 x1) (ix2 p j)
      = Chen.rows A B (ix2 r j) := by
  rw [Block.stored_apply, Chen.rows_apply]
  simp only [h0, h1]

/-- What point `t` writes back is block `t` of the row-by-row product of the argument arrays. -/
theorem flushed_eq (c : Dev nD) (t : Fin cfg0.N) :
    (dats m 0 c).flushed 2 t
      = ((cfg0.win 2).blk t).view.read (Elt Ideal) (Chen.rows (V m c main_arg0) (V m c main_arg1)) := by
  rw [flushed2]
  unfold out0_2
  rw [View.canon_unit_zero zero_offsets]
  simp only [View.ld_unit_zero (S := S256x4680) zero_offsets]
  obtain ⟨e0, e1, e2, e3, e4, e5⟩ := index_facts t
  have ht : t.val < 64 := Nat.lt_of_lt_of_eq t.isLt (N_0 : cfg0.N = 64)
  funext y
  have hy0 : (y 0).val < 256 := (y 0).isLt
  have hy1 : (y 1).val < 4680 := (y 1).isLt
  have hy : y = ix2 (⟨(y 0).val, hy0⟩ : Fin 256) (⟨(y 1).val, hy1⟩ : Fin 4680) :=
    funext fun a => by
      match a with
      | ⟨0, _⟩ => rfl
      | ⟨1, _⟩ => rfl
  have hemb : ((cfg0.win 2).blk t).view.emb y
      = ix2 (⟨t.val * 256 + (y 0).val, by omega⟩ : Fin 16384) (⟨(y 1).val, hy1⟩ : Fin 4680) :=
    funext fun a => Fin.ext (by
      match a with
      | ⟨0, _⟩ => show win0_2.index t (0 : Fin 2) * 256 + 1 * (y 0).val = t.val * 256 + (y 0).val; omega
      | ⟨1, _⟩ => show win0_2.index t (1 : Fin 2) * 4680 + 1 * (y 1).val = (y 1).val; omega)
  have h0 : ∀ k : Fin 4680, iblk m c 0 t (ix2 (⟨(y 0).val, hy0⟩ : Fin 256) k)
      = V m c main_arg0 (ix2 (⟨t.val * 256 + (y 0).val, by omega⟩ : Fin 16384) k) := fun k => by
    show V m c main_arg0 (((cfg0.win 0).blk t).view.emb (ix2 (⟨(y 0).val, hy0⟩ : Fin 256) k)) = _
    refine congrArg _ (funext fun a => Fin.ext ?_)
    match a with
    | ⟨0, _⟩ => show win0_0.index t (0 : Fin 2) * 256 + 1 * (y 0).val = t.val * 256 + (y 0).val; omega
    | ⟨1, _⟩ => show win0_0.index t (1 : Fin 2) * 4680 + 1 * k.val = k.val; omega
  have h1 : ∀ k : Fin 4680, iblk m c 1 t (ix2 (⟨(y 0).val, hy0⟩ : Fin 256) k)
      = V m c main_arg1 (ix2 (⟨t.val * 256 + (y 0).val, by omega⟩ : Fin 16384) k) := fun k => by
    show V m c main_arg1 (((cfg0.win 1).blk t).view.emb (ix2 (⟨(y 0).val, hy0⟩ : Fin 256) k)) = _
    refine congrArg _ (funext fun a => Fin.ext ?_)
    match a with
    | ⟨0, _⟩ => show win0_1.index t (0 : Fin 2) * 256 + 1 * (y 0).val = t.val * 256 + (y 0).val; omega
    | ⟨1, _⟩ => show win0_1.index t (1 : Fin 2) * 4680 + 1 * k.val = k.val; omega
  refine ((congrArg _ hy).trans (block_rows (V m c main_arg0) (V m c main_arg1) (iblk m c 0 t) (iblk m c 1 t)
    ⟨(y 0).val, hy0⟩ ⟨t.val * 256 + (y 0).val, by omega⟩ ⟨(y 1).val, hy1⟩ h0 h1)).trans ?_
  exact (congrArg (Chen.rows (V m c main_arg0) (V m c main_arg1)) hemb).symm

/-- An index of the output array is in point `t`'s block iff each coordinate is in the block's range on its axis. -/
theorem mem_block (t : Fin cfg0.N) (i : S16384x4680.Idx) :
    i ∈ ((cfg0.win 2).blk t).view.set ↔ ∀ a : Fin 2, win0_2.index t a * S256x4680.size a ≤ (i a).val
      ∧ (i a).val < win0_2.index t a * S256x4680.size a + S256x4680.size a := by
  show i ∈ ((View.whole main_v0).slice (win0_2.rect t)).set ↔ _
  rw [View.set_slice_whole, Rect.mem_set_unit]
  exact Iff.rfl

/-- Row `r` of the output lies in the band of point `r / 256`: the bands cover the array. -/
theorem cover (i : S16384x4680.Idx) :
    ∃ t : Fin cfg0.N, (cfg0.win 2).flush t = true ∧ i ∈ ((cfg0.win 2).blk t).view.set := by
  have hi0 : (i 0).val < 16384 := (i 0).isLt
  have hi1 : (i 1).val < 4680 := (i 1).isLt
  have hN : cfg0.N = 64 := N_0
  have hlt : (i 0).val / 256 < cfg0.N := by rw [hN]; omega
  obtain ⟨-, -, -, -, e4, e5⟩ := index_facts ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_block]
  intro a
  match a with
  | ⟨0, _⟩ =>
    show win0_2.index ⟨(i 0).val / 256, hlt⟩ (0 : Fin 2) * 256 ≤ (i 0).val
      ∧ (i 0).val < win0_2.index ⟨(i 0).val / 256, hlt⟩ (0 : Fin 2) * 256 + 256
    rw [e4']; omega
  | ⟨1, _⟩ =>
    show win0_2.index ⟨(i 0).val / 256, hlt⟩ (1 : Fin 2) * 4680 ≤ (i 1).val
      ∧ (i 1).val < win0_2.index ⟨(i 0).val / 256, hlt⟩ (1 : Fin 2) * 4680 + 4680
    rw [e5]; omega

/-- The output array after the run is the row-by-row product of the arguments. -/
theorem final (c : Dev nD) :
    (dats m 0 c).arrAt 2 cfg0.N
      = Chen.rows (m ((c : Thread nD τ).loc main_arg0)) (m ((c : Thread nD τ).loc main_arg1)) :=
  (dats m 0 c).arrAt_eq_of_cover 2 _ (fun t _ => flushed_eq m c t) cover

/-- The kernel's run: the result is the row-by-row product of the arguments, which end unchanged. -/
theorem run : θ_run defs (onTc (τ := τ) (main (F := Ideal))) ⟨m, fun _ => 0, ρ⟩ fun r => ∀ c : Dev nD,
      r.2.mem ((c : Thread nD τ).loc main_v0)
        = Chen.rows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Result

end
-- ==== Proof.ReferenceRows.lean ====
/-
  What the reference computes, entry by entry.

  The reference cuts every row of the two `[16384, 4680]` arrays into its four levels, forms level `k` of the product
  as `a_k + b_k` plus the flattened outer products `a_i ⊗ b_{k-i}` (`i = 1 … k-1`, added in that order), and lays the four
  levels side by side. Read at row `e` and column `j`, its result is column `j` of Chen's product of row `e` of the
  first argument with row `e` of the second: the whole result is the product taken row by row.
-/
import proofs.«122024_j82222853915370_1_alg».proof.Proof.Gen.ReferenceIdeal.Run
import proofs.«122024_j82222853915370_1_alg».proof.Proof.LibBandOuter
import proofs.«122024_j82222853915370_1_alg».proof.Proof.LibConcat4
import proofs.«122024_j82222853915370_1_alg».proof.Proof.ChenRow

noncomputable section

namespace Cert.ReferenceIdeal.Rows

open Cert.ReferenceIdeal Cert.ReferenceIdeal.Gen Cert.ReferenceIdeal.Value
open Idealize.ShloMosaic Idealize.ShloMosaic.TcCoe Idealize.SL.Sem Idealize.ShloMosaic.ValueIdx
open Cert.LibBandOuter Cert.LibConcat4

variable (X Y : FVec Ideal S16384x4680 .f32) (e : Fin 16384)

/-- Level 1: the sum of the two level-1 bands. -/
theorem level1_apply (q : Fin 8) (j : Fin 4680) (hj : j.val = q.val) :
    addf (extractStridedSlice S16384x8 ![0, 0] X slices_S16384x4680_S16384x8_0_0)
        (extractStridedSlice S16384x8 ![0, 0] Y slices_S16384x4680_S16384x8_0_0) (ix2 e q)
      = X (ix2 e j) + Y (ix2 e j) := by
  rw [addf_apply, slice2_axis1_apply 0 X _ e q j (by omega), slice2_axis1_apply 0 Y _ e q j (by omega)]

/-- Level 2: the level-2 bands' sum plus `a_1 ⊗ b_1`. -/
theorem level2_apply (q : Fin 64) (j ka kb : Fin 4680) (hj : j.val = 8 + q.val)
    (hka : ka.val = q.val / 8) (hkb : kb.val = q.val % 8) :
    addf (addf (extractStridedSlice S16384x64 ![0, 8] X slices_S16384x4680_S16384x64_0_8)
          (extractStridedSlice S16384x64 ![0, 8] Y slices_S16384x4680_S16384x64_0_8))
        (shapeCast S16384x64 (mulf
          (broadcastInDim S16384x8x8 ![0, 1, 2] bcast_S16384x8x1_S16384x8x8_0_1_2 (broadcastInDim S16384x8x1 ![0, 1] bcast_S16384x8_S16384x8x1_0_1
            (extractStridedSlice S16384x8 ![0, 0] X slices_S16384x4680_S16384x8_0_0)))
          (broadcastInDim S16384x8x8 ![0, 1, 2] bcast_S16384x1x8_S16384x8x8_0_1_2 (broadcastInDim S16384x1x8 ![0, 2] bcast_S16384x8_S16384x1x8_0_2
            (extractStridedSlice S16384x8 ![0, 0] Y slices_S16384x4680_S16384x8_0_0))))
          shapeCasts_S16384x8x8_S16384x64) (ix2 e q)
      = (X (ix2 e j) + Y (ix2 e j)) + X (ix2 e ka) * Y (ix2 e kb) := by
  rw [addf_apply, addf_apply, slice2_axis1_apply 8 X _ e q j hj, slice2_axis1_apply 8 Y _ e q j hj,
    bcast_band_outer_apply (n := 16384) (W := 4680) (a := 8) (b := 8) (ab := 64) rfl 0 0 X Y _ _ _ _ _ _ _ e q ka kb
      (by omega) (by omega)]

/-- Level 3: the level-3 bands' sum plus `a_1 ⊗ b_2` plus `a_2 ⊗ b_1`. -/
theorem level3_apply (q : Fin 512) (j ka kb la lb : Fin 4680) (hj : j.val = 72 + q.val)
    (hka : ka.val = q.val / 64) (hkb : kb.val = 8 + q.val % 64)
    (hla : la.val = 8 + q.val / 8) (hlb : lb.val = q.val % 8) :
    addf (addf (addf (extractStridedSlice S16384x512 ![0, 72] X slices_S16384x4680_S16384x512_0_72)
            (extractStridedSlice S16384x512 ![0, 72] Y slices_S16384x4680_S16384x512_0_72))
          (shapeCast S16384x512 (mulf
            (broadcastInDim S16384x8x64 ![0, 1, 2] bcast_S16384x8x1_S16384x8x64_0_1_2 (broadcastInDim S16384x8x1 ![0, 1] bcast_S16384x8_S16384x8x1_0_1
              (extractStridedSlice S16384x8 ![0, 0] X slices_S16384x4680_S16384x8_0_0)))
            (broadcastInDim S16384x8x64 ![0, 1, 2] bcast_S16384x1x64_S16384x8x64_0_1_2 (broadcastInDim S16384x1x64 ![0, 2] bcast_S16384x64_S16384x1x64_0_2
              (extractStridedSlice S16384x64 ![0, 8] Y slices_S16384x4680_S16384x64_0_8))))
            shapeCasts_S16384x8x64_S16384x512))
        (shapeCast S16384x512 (mulf
          (broadcastInDim S16384x64x8 ![0, 1, 2] bcast_S16384x64x1_S16384x64x8_0_1_2 (broadcastInDim S16384x64x1 ![0, 1] bcast_S16384x64_S16384x64x1_0_1
            (extractStridedSlice S16384x64 ![0, 8] X slices_S16384x4680_S16384x64_0_8)))
          (broadcastInDim S16384x64x8 ![0, 1, 2] bcast_S16384x1x8_S16384x64x8_0_1_2 (broadcastInDim S16384x1x8 ![0, 2] bcast_S16384x8_S16384x1x8_0_2
            (extractStridedSlice S16384x8 ![0, 0] Y slices_S16384x4680_S16384x8_0_0))))
          shapeCasts_S16384x64x8_S16384x512) (ix2 e q)
      = ((X (ix2 e j) + Y (ix2 e j)) + X (ix2 e ka) * Y (ix2 e kb)) + X (ix2 e la) * Y (ix2 e lb) := by
  rw [addf_apply, addf_apply, addf_apply, slice2_axis1_apply 72 X _ e q j hj, slice2_axis1_apply 72 Y _ e q j hj,
    bcast_band_outer_apply (n := 16384) (W := 4680) (a := 8) (b := 64) (ab := 512) rfl 0 8 X Y _ _ _ _ _ _ _ e q ka kb
      (by omega) hkb,
    bcast_band_outer_apply (n := 16384) (W := 4680) (a := 64) (b := 8) (ab := 512) rfl 8 0 X Y _ _ _ _ _ _ _ e q la lb
      hla (by omega)]

/-- Level 4: the level-4 bands' sum plus `a_1 ⊗ b_3`, `a_2 ⊗ b_2` and `a_3 ⊗ b_1`. -/
theorem level4_apply (q : Fin 4096) (j ka kb la lb ma mb : Fin 4680) (hj : j.val = 584 + q.val)
    (hka : ka.val = q.val / 512) (hkb : kb.val = 72 + q.val % 512)
    (hla : la.val = 8 + q.val / 64) (hlb : lb.val = 8 + q.val % 64)
    (hma : ma.val = 72 + q.val / 8) (hmb : mb.val = q.val % 8) :
    addf (addf (addf (addf (extractStridedSlice S16384x4096 ![0, 584] X slices_S16384x4680_S16384x4096_0_584)
              (extractStridedSlice S16384x4096 ![0, 584] Y slices_S16384x4680_S16384x4096_0_584))
            (shapeCast S16384x4096 (mulf
              (broadcastInDim S16384x8x512 ![0, 1, 2] bcast_S16384x8x1_S16384x8x512_0_1_2 (broadcastInDim S16384x8x1 ![0, 1] bcast_S16384x8_S16384x8x1_0_1
                (extractStridedSlice S16384x8 ![0, 0] X slices_S16384x4680_S16384x8_0_0)))
              (broadcastInDim S16384x8x512 ![0, 1, 2] bcast_S16384x1x512_S16384x8x512_0_1_2 (broadcastInDim S16384x1x512 ![0, 2] bcast_S16384x512_S16384x1x512_0_2
                (extractStridedSlice S16384x512 ![0, 72] Y slices_S16384x4680_S16384x512_0_72))))
              shapeCasts_S16384x8x512_S16384x4096))
          (shapeCast S16384x4096 (mulf
            (broadcastInDim S16384x64x64 ![0, 1, 2] bcast_S16384x64x1_S16384x64x64_0_1_2 (broadcastInDim S16384x64x1 ![0, 1] bcast_S16384x64_S16384x64x1_0_1
              (extractStridedSlice S16384x64 ![0, 8] X slices_S16384x4680_S16384x64_0_8)))
            (broadcastInDim S16384x64x64 ![0, 1, 2] bcast_S16384x1x64_S16384x64x64_0_1_2 (broadcastInDim S16384x1x64 ![0, 2] bcast_S16384x64_S16384x1x64_0_2
              (extractStridedSlice S16384x64 ![0, 8] Y slices_S16384x4680_S16384x64_0_8))))
            shapeCasts_S16384x64x64_S16384x4096))
        (shapeCast S16384x4096 (mulf
          (broadcastInDim S16384x512x8 ![0, 1, 2] bcast_S16384x512x1_S16384x512x8_0_1_2 (broadcastInDim S16384x512x1 ![0, 1] bcast_S16384x512_S16384x512x1_0_1
            (extractStridedSlice S16384x512 ![0, 72] X slices_S16384x4680_S16384x512_0_72)))
          (broadcastInDim S16384x512x8 ![0, 1, 2] bcast_S16384x1x8_S16384x512x8_0_1_2 (broadcastInDim S16384x1x8 ![0, 2] bcast_S16384x8_S16384x1x8_0_2
            (extractStridedSlice S16384x8 ![0, 0] Y slices_S16384x4680_S16384x8_0_0))))
          shapeCasts_S16384x512x8_S16384x4096) (ix2 e q)
      = (((X (ix2 e j) + Y (ix2 e j)) + X (ix2 e ka) * Y (ix2 e kb)) + X (ix2 e la) * Y (ix2 e lb))
        + X (ix2 e ma) * Y (ix2 e mb) := by
  rw [addf_apply, addf_apply, addf_apply, addf_apply,
    slice2_axis1_apply 584 X _ e q j hj, slice2_axis1_apply 584 Y _ e q j hj,
    bcast_band_outer_apply (n := 16384) (W := 4680) (a := 8) (b := 512) (ab := 4096) rfl 0 72 X Y _ _ _ _ _ _ _ e q ka kb
      (by omega) hkb,
    bcast_band_outer_apply (n := 16384) (W := 4680) (a := 64) (b := 64) (ab := 4096) rfl 8 8 X Y _ _ _ _ _ _ _ e q la lb
      hla hlb,
    bcast_band_outer_apply (n := 16384) (W := 4680) (a := 512) (b := 8) (ab := 4096) rfl 72 0 X Y _ _ _ _ _ _ _ e q ma mb
      hma (by omega)]

end Cert.ReferenceIdeal.Rows

namespace Cert.ReferenceIdeal.Rows

open Cert.ReferenceIdeal Cert.ReferenceIdeal.Gen Cert.ReferenceIdeal.Value
open Idealize.ShloMosaic Idealize.ShloMosaic.TcCoe Idealize.SL.Sem Idealize.ShloMosaic.ValueIdx
open Cert.LibBandOuter Cert.LibConcat4

/-- The reference's result is the product of its two arguments taken row by row. -/
theorem result_eq (m : (ℓ : Loc nD τ sig) → Buf (Elt Ideal) ℓ) (c : Dev nD) :
    res_main_v54 (F := Ideal) m c
      = Chen.rows (m ((c.tc : Thread nD τ).loc main_arg0)) (m ((c.tc : Thread nD τ).loc main_arg1)) := by
  funext i
  obtain ⟨e, j, rfl⟩ : ∃ (e : Fin 16384) (j : Fin 4680), i = ix2 e j := ⟨i 0, i 1, eq_ix2 i⟩
  rw [Chen.rows_apply]
  have hj := j.isLt
  unfold res_main_v54 Chen.row
  by_cases h1 : j.val < 8
  · rw [dif_pos h1]
    refine (concat4_apply_0 _ _ _ _ _ e j ⟨j.val, h1⟩ rfl).trans ?_
    exact level1_apply _ _ e ⟨j.val, h1⟩ j rfl
  · rw [dif_neg h1]
    by_cases h2 : j.val < 72
    · rw [dif_pos h2]
      refine (concat4_apply_1 _ _ _ _ _ e j ⟨j.val - 8, by omega⟩ (by show j.val = 8 + (j.val - 8); omega)).trans ?_
      exact level2_apply _ _ e ⟨j.val - 8, by omega⟩ j _ _ (by show j.val = 8 + (j.val - 8); omega) rfl rfl
    · rw [dif_neg h2]
      by_cases h3 : j.val < 584
      · rw [dif_pos h3]
        refine (concat4_apply_2 _ _ _ _ _ e j ⟨j.val - 72, by omega⟩
          (by show j.val = 8 + 64 + (j.val - 72); omega)).trans ?_
        exact level3_apply _ _ e ⟨j.val - 72, by omega⟩ j _ _ _ _ (by show j.val = 72 + (j.val - 72); omega)
          rfl rfl rfl rfl
      · rw [dif_neg h3]
        refine (concat4_apply_3 _ _ _ _ _ e j ⟨j.val - 584, by omega⟩
          (by show j.val = 8 + 64 + 512 + (j.val - 584); omega)).trans ?_
        exact level4_apply _ _ e ⟨j.val - 584, by omega⟩ j _ _ _ _ _ _ (by show j.val = 584 + (j.val - 584); omega)
          rfl rfl rfl rfl rfl rfl

end Cert.ReferenceIdeal.Rows

end
-- ==== Proof.lean ====
/-
  Chen's relation for batched path signatures, truncated at depth 4 over 8 channels: each row of the two
  `[16384, 4680]` inputs holds the four levels of a signature laid end to end, and level `k` of the output row is
  `a_k + b_k + Σ_{i=1}^{k-1} a_i ⊗ b_{k-i}`.

  The kernel computes this on bands of 256 rows, one band per grid point; the reference computes it on all rows at
  once. Both form the same sums in the same order, so on the extended reals the two results agree entry by entry
  with no law beyond reading each layout operation at an index: a slice shifts the column, an added unit axis and a
  broadcast over it forget one coordinate, the flattening reshape sends `(c, d)` to `c · 8^(k-i) + d`, and the
  concatenation picks the level whose span holds the column. The common value is `Chen.rows`, the product taken row
  by row (ChenRow.lean); KernelBlock.lean and KernelArray.lean show the kernel's output array ends at it,
  ReferenceRows.lean that the reference's result is it. The inputs' finiteness is never used.
-/
import proofs.«122024_j82222853915370_1_alg».proof.Defs
import proofs.«122024_j82222853915370_1_alg».proof.Proof.Gen.Kernel
import proofs.«122024_j82222853915370_1_alg».proof.Proof.Gen.Kernel.Frame
import proofs.«122024_j82222853915370_1_alg».proof.Proof.Gen.KernelIdeal
import proofs.«122024_j82222853915370_1_alg».proof.Proof.Gen.KernelIdeal.Frame
import proofs.«122024_j82222853915370_1_alg».proof.Proof.Gen.KernelIdeal.Value
import proofs.«122024_j82222853915370_1_alg».proof.Proof.Gen.ReferenceIdeal
import proofs.«122024_j82222853915370_1_alg».proof.Proof.Gen.ReferenceIdeal.Run
import proofs.«122024_j82222853915370_1_alg».proof.Proof.Gen.Pre_finite_inputs
import proofs.«122024_j82222853915370_1_alg».proof.Proof.KernelArray
import proofs.«122024_j82222853915370_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the product of their arguments taken row by row. -/
theorem algebraic : Cert.algebraic_KernelIdeal_ReferenceIdeal := by
  intro m ρ m' ρ' _ hagree
  refine ⟨fun c => Cert.Chen.rows (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
